-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x512 : Shape := ⟨4, ![8, 16, 256, 512]⟩
abbrev S512x512 : Shape := ⟨2, ![512, 512]⟩
abbrev S_ : Shape := ⟨0, ![]⟩

class Facts : Prop where
  bcast_S_S8x16x256x512 : S_.BroadcastsInDim S8x16x256x512 (![] : Fin 0 → Fin S8x16x256x512.rank)
  reducesTo_S8x16x256x512_S_d0_1_2_3 : S8x16x256x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x16x256x512 .f32) (main_arg1 : FVec F S8x16x256x512 .f32) (main_arg2 : FVec F S512x512 .f32) (main_arg3 : FVec F S512x512 .f32) : IVec S_ 1 :=
  let main_v0 : FVec F S8x16x256x512 .f32 := Host.absf main_arg0
  let main_cst : FVec F S_ .f32 := constant S_ .f32 0x7F800000#32
  let main_v1 : FVec F S8x16x256x512 .f32 := broadcastInDim S8x16x256x512 ![] bcast_S_S8x16x256x512 main_cst
  let main_v2 : IVec S8x16x256x512 1 := cmpf .olt main_v0 main_v1
  let main_c : IVec S_ 1 := constantI S_ 1 1#1
  let main_v3 : IVec S_ 1 := (fun x v => Host.reduce IntOp.andi x v reducesTo_S8x16x256x512_S_d0_1_2_3 h_S_) main_v2 main_c
  let main_v4 : FVec F S8x16x256x512 .f32 := Host.absf main_arg1
  let main_cst_0 : FVec F S_ .f32 := constant S_ .f32 0x7F800000#32
  let main_v5 : FVec F S8x16x256x512 .f32 := broadcastInDim S8x16x256x512 ![] bcast_S_S8x16x256x512 main_cst_0
  let main_v6 : IVec S8x16x256x512 1 := cmpf .olt main_v4 main_v5
  let main_c_1 : IVec S_ 1 := constantI S_ 1 1#1
  let main_v7 : IVec S_ 1 := (fun x v => Host.reduce IntOp.andi x v reducesTo_S8x16x256x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x16x256x512 : Shape := ⟨4, ![8, 16, 256, 512]⟩
abbrev S512x512 : Shape := ⟨2, ![512, 512]⟩
abbrev S32768x512 : Shape := ⟨2, ![32768, 512]⟩
abbrev S2048x512 : Shape := ⟨2, ![2048, 512]⟩
abbrev S8x16x256x512x1 : Shape := ⟨5, ![8, 16, 256, 512, 1]⟩
abbrev S8x16x256x512x2 : Shape := ⟨5, ![8, 16, 256, 512, 2]⟩

abbrev nBuf : Space → Nat
  | .hbm => 15
  | .vmem => 10
  | .smem => 0
  | _ => 0

abbrev bufTy : (tb : Table) → Fin (tcTables nBuf tb) → BufTy
  | .hbm, ⟨0, _⟩ => ⟨S8x16x256x512, .f32⟩
  | .hbm, ⟨1, _⟩ => ⟨S8x16x256x512, .f32⟩
  | .hbm, ⟨2, _⟩ => ⟨S512x512, .f32⟩
  | .hbm, ⟨3, _⟩ => ⟨S512x512, .f32⟩
  | .hbm, ⟨4, _⟩ => ⟨S32768x512, .f32⟩
  | .hbm, ⟨5, _⟩ => ⟨S32768x512, .f32⟩
  | .hbm, ⟨6, _⟩ => ⟨S512x512, .f32⟩
  | .hbm, ⟨7, _⟩ => ⟨S512x512, .f32⟩
  | .hbm, ⟨8, _⟩ => ⟨S32768x512, .f32⟩
  | .hbm, ⟨9, _⟩ => ⟨S32768x512, .f32⟩
  | .hbm, ⟨10, _⟩ => ⟨S8x16x256x512, .f32⟩
  | .hbm, ⟨11, _⟩ => ⟨S8x16x256x512, .f32⟩
  | .hbm, ⟨12, _⟩ => ⟨S8x16x256x512x1, .f32⟩
  | .hbm, ⟨13, _⟩ => ⟨S8x16x256x512x1, .f32⟩
  | .hbm, ⟨14, _⟩ => ⟨S8x16x256x512x2, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S8x16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x16x256x512_S32768x512 : S8x16x256x512.ShapeCasts S32768x512
  transposes_S512x512_S512x512_1_0 : S512x512.Transposes [1, 0] S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32768x512_S8x16x256x512 : S32768x512.ShapeCasts S8x16x256x512
  bcast_S8x16x256x512_S8x16x256x512x1_0_1_2_3 : S8x16x256x512.BroadcastsInDim S8x16x256x512x1 (![0, 1, 2, 3] : Fin 4 → Fin S8x16x256x512x1.rank)
  concatenates_S8x16x256x512x1_S8x16x256x512x1_S8x16x256x512x2_d4 : Shape.Concatenates [S8x16x256x512x1, S8x16x256x512x1] S8x16x256x512x2 4
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S32768x512.size a
  hwx0_5 : ∀ i : grid0.Coords, EltTy.bits .f32 = 32 ∨ (Rect.block (s := S32768x512) S2048x512.size (cc0_transform_5 i) (hinb0_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2048x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x256x512 : Shape := ⟨4, ![8, 16, 256, 512]⟩
abbrev S512x512 : Shape := ⟨2, ![512, 512]⟩
abbrev S8x16x256x512x1 : Shape := ⟨5, ![8, 16, 256, 512, 1]⟩
abbrev S8x16x256x512x2 : Shape := ⟨5, ![8, 16, 256, 512, 2]⟩

abbrev nBuf : Space → Nat
  | .hbm => 13
  | .vmem => 0
  | .smem => 0
  | _ => 0

abbrev bufTy : (tb : Table) → Fin (tcTables nBuf tb) → BufTy
  | .hbm, ⟨0, _⟩ => ⟨S8x16x256x512, .f32⟩
  | .hbm, ⟨1, _⟩ => ⟨S8x16x256x512, .f32⟩
  | .hbm, ⟨2, _⟩ => ⟨S512x512, .f32⟩
  | .hbm, ⟨3, _⟩ => ⟨S512x512, .f32⟩
  | .hbm, ⟨4, _⟩ => ⟨S8x16x256x512, .f32⟩
  | .hbm, ⟨5, _⟩ => ⟨S8x16x256x512, .f32⟩
  | .hbm, ⟨6, _⟩ => ⟨S8x16x256x512, .f32⟩
  | .hbm, ⟨7, _⟩ => ⟨S8x16x256x512, .f32⟩
  | .hbm, ⟨8, _⟩ => ⟨S8x16x256x512, .f32⟩
  | .hbm, ⟨9, _⟩ => ⟨S8x16x256x512, .f32⟩
  | .hbm, ⟨10, _⟩ => ⟨S8x16x256x512x1, .f32⟩
  | .hbm, ⟨11, _⟩ => ⟨S8x16x256x512x1, .f32⟩
  | .hbm, ⟨12, _⟩ => ⟨S8x16x256x512x2, .f32⟩
  | _, _ => ⟨S8x16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8x16x256x512_S8x16x256x512x1_0_1_2_3 : S8x16x256x512.BroadcastsInDim S8x16x256x512x1 (![0, 1, 2, 3] : Fin 4 → Fin S8x16x256x512x1.rank)
  concatenates_S8x16x256x512x1_S8x16x256x512x1_S8x16x256x512x2_d4 : Shape.Concatenates [S8x16x256x512x1, S8x16x256x512x1] S8x16x256x512x2 4
  dot_S8x16x256x512_S512x512_S8x16x256x512_3_1_012_0_n_n_wf : DotDims.WF S8x16x256x512 S512x512 S8x16x256x512 [3] [1] [0, 1, 2] [0] [] []

variable [Facts₀]

def dot_S8x16x256x512_S512x512_S8x16x256x512_3_1_012_0_n_n : DotDims S8x16x256x512 S512x512 S8x16x256x512 where
  lhsContracting := [3]
  rhsContracting := [1]
  lhsNonContracting := [0, 1, 2]
  rhsNonContracting := [0]
  lhsBatch := []
  rhsBatch := []
  wf := dot_S8x16x256x512_S512x512_S8x16x256x512_3_1_012_0_n_n_wf

class Facts : Prop extends Facts₀ where

variable [Facts]
-- ==== Proof.DftSpec.lean ====
/-
  The complex linear layer  y = x · Wᵀ  over the reals, split into real and imaginary parts:

      y_re[b,c,d,h] = Σ_j x_re[b,c,d,j] · w_re[h,j]  −  Σ_j x_im[b,c,d,j] · w_im[h,j]
      y_im[b,c,d,h] = Σ_j x_re[b,c,d,j] · w_im[h,j]  +  Σ_j x_im[b,c,d,j] · w_re[h,j]

  stated once over the extended reals, index by index, on the 4-axis input arrays (`re`, `im`), and once on the
  flattened layout in which the first three axes are merged into one row axis of extent 8·16·256 = 32768 and the
  weights are transposed (`flatRe`, `flatIm`). The two statements are the same function: merging the leading axes
  keeps the row-major position, and a transposed weight read at (j, h) is the weight at (h, j) (`unflatten_flatRe`,
  `unflatten_flatIm`). No algebraic law of the extended reals is used: the sums are the same sums, term by term.
-/
import Idealize.ShloMosaic.PureOps.Ideal
import Idealize.ShloMosaic.Lib.ValueIdx
import Idealize.ShloMosaic.Lib.Pipeline.Value

noncomputable section

namespace Cert.Dft

open Idealize.ShloMosaic Idealize.ShloMosaic.ValueIdx

/-- The 4-axis input layout (batch, channel, doppler, range sample). -/
abbrev SX : Shape := ⟨4, ![8, 16, 256, 512]⟩
/-- The weight layout (output frequency h, input sample j). -/
abbrev SW : Shape := ⟨2, ![512, 512]⟩
/-- The flattened layout: one row per (batch, channel, doppler) triple. -/
abbrev SF : Shape := ⟨2, ![32768, 512]⟩

/-- Real part of x · Wᵀ at (b, c, d, h). -/
def re (xr xi : SX.Idx → EReal) (wr wi : SW.Idx → EReal) : SX.Idx → EReal := fun i =>
  (∑ k : Fin 512, xr (ix4 (i 0) (i 1) (i 2) k) * wr (ix2 (i 3) k))
    - ∑ k : Fin 512, xi (ix4 (i 0) (i 1) (i 2) k) * wi (ix2 (i 3) k)

/-- Imaginary part of x · Wᵀ at (b, c, d, h). -/
def im (xr xi : SX.Idx → EReal) (wr wi : SW.Idx → EReal) : SX.Idx → EReal := fun i =>
  (∑ k : Fin 512, xr (ix4 (i 0) (i 1) (i 2) k) * wi (ix2 (i 3) k))
    + ∑ k : Fin 512, xi (ix4 (i 0) (i 1) (i 2) k) * wr (ix2 (i 3) k)

/-- Real part on the flattened layout, the weights already transposed: row r, column h. -/
def flatRe (X0 X1 : SF.Idx → EReal) (T2 T3 : SW.Idx → EReal) : SF.Idx → EReal := fun j =>
  (∑ k : Fin 512, X0 (ix2 (j 0) k) * T2 (ix2 k (j 1)))
    - ∑ k : Fin 512, X1 (ix2 (j 0) k) * T3 (ix2 k (j 1))

/-- Imaginary part on the flattened layout, the weights already transposed. -/
def flatIm (X0 X1 : SF.Idx → EReal) (T2 T3 : SW.Idx → EReal) : SF.Idx → EReal := fun j =>
  (∑ k : Fin 512, X0 (ix2 (j 0) k) * T3 (ix2 k (j 1)))
    + ∑ k : Fin 512, X1 (ix2 (j 0) k) * T2 (ix2 k (j 1))

/-- The flattened real part read at explicit coordinates (row r, column q). -/
theorem flatRe_at (X0 X1 : SF.Idx → EReal) (T2 T3 : SW.Idx → EReal) (r : Fin 32768) (q : Fin 512) :
    flatRe X0 X1 T2 T3 (ix2 r q)
      = (∑ k : Fin 512, X0 (ix2 r k) * T2 (ix2 k q)) - ∑ k : Fin 512, X1 (ix2 r k) * T3 (ix2 k q) := rfl

/-- The flattened imaginary part read at explicit coordinates (row r, column q). -/
theorem flatIm_at (X0 X1 : SF.Idx → EReal) (T2 T3 : SW.Idx → EReal) (r : Fin 32768) (q : Fin 512) :
    flatIm X0 X1 T2 T3 (ix2 r q)
      = (∑ k : Fin 512, X0 (ix2 r k) * T3 (ix2 k q)) + ∑ k : Fin 512, X1 (ix2 r k) * T2 (ix2 k q) := rfl

/-- The row of the flattened layout that holds (b, c, d). -/
def row (b : Fin 8) (c : Fin 16) (d : Fin 256) : Fin 32768 := ⟨(b.val * 16 + c.val) * 256 + d.val, by omega⟩

/-- A flattened array read at (row b c d, k) is the 4-axis array at (b, c, d, k): same row-major position. -/
theorem flatten_apply (x : SX.Idx → EReal) (h : SX.ShapeCasts SF) (b : Fin 8) (c : Fin 16) (d : Fin 256) (k : Fin 512) :
    shapeCast SF x h (ix2 (row b c d) k) = x (ix4 b c d k) := by
  refine shapeCast_apply x h _ _ ?_
  rw [Shape.rowMajor_val_four, Shape.rowMajor_val_two]
  rfl

/-- A transposed weight read at (k, q) is the weight at (q, k). -/
theorem transposed_apply (w : SW.Idx → EReal) (h : SW.Transposes [1, 0] SW) (k q : Fin 512) :
    transpose SW [1, 0] w h (ix2 k q) = w (ix2 q k) := by
  refine transpose_apply [1, 0] w h _ _ fun b => ?_
  match b with
  | ⟨0, _⟩ => rfl
  | ⟨1, _⟩ => rfl

/-- Splitting the row axis back into (batch, channel, doppler) turns the flattened real part of the flattened inputs
    and transposed weights into the real part on the 4-axis layout. -/
theorem unflatten_flatRe (xr xi : SX.Idx → EReal) (wr wi : SW.Idx → EReal)
    (hf : SX.ShapeCasts SF) (ht : SW.Transposes [1, 0] SW) (hu : SF.ShapeCasts SX) :
    shapeCast SX (flatRe (shapeCast SF xr hf) (shapeCast SF xi hf) (transpose SW [1, 0] wr ht) (transpose SW [1, 0] wi ht)) hu
      = re xr xi wr wi := by
  funext i
  obtain ⟨b, c, d, q, rfl⟩ : ∃ (b : Fin 8) (c : Fin 16) (d : Fin 256) (q : Fin 512), i = ix4 b c d q :=
    ⟨i 0, i 1, i 2, i 3, eq_ix4 i⟩
  refine (shapeCast_apply _ hu (ix4 b c d q) (ix2 (row b c d) q) ?_).trans ?_
  · rw [Shape.rowMajor_val_four, Shape.rowMajor_val_two]; rfl
  · refine (flatRe_at _ _ _ _ (row b c d) q).trans ?_
    show _ = (∑ k : Fin 512, xr (ix4 b c d k) * wr (ix2 q k)) - ∑ k : Fin 512, xi (ix4 b c d k) * wi (ix2 q k)
    have e1 : ∀ k : Fin 512, transpose SW [1, 0] wr ht (ix2 k q) = wr (ix2 q k) := fun k => transposed_apply wr ht k q
    have e2 : ∀ k : Fin 512, transpose SW [1, 0] wi ht (ix2 k q) = wi (ix2 q k) := fun k => transposed_apply wi ht k q
    simp only [flatten_apply, e1, e2]

/-- The same for the imaginary part. -/
theorem unflatten_flatIm (xr xi : SX.Idx → EReal) (wr wi : SW.Idx → EReal)
    (hf : SX.ShapeCasts SF) (ht : SW.Transposes [1, 0] SW) (hu : SF.ShapeCasts SX) :
    shapeCast SX (flatIm (shapeCast SF xr hf) (shapeCast SF xi hf) (transpose SW [1, 0] wr ht) (transpose SW [1, 0] wi ht)) hu
      = im xr xi wr wi := by
  funext i
  obtain ⟨b, c, d, q, rfl⟩ : ∃ (b : Fin 8) (c : Fin 16) (d : Fin 256) (q : Fin 512), i = ix4 b c d q :=
    ⟨i 0, i 1, i 2, i 3, eq_ix4 i⟩
  refine (shapeCast_apply _ hu (ix4 b c d q) (ix2 (row b c d) q) ?_).trans ?_
  · rw [Shape.rowMajor_val_four, Shape.rowMajor_val_two]; rfl
  · refine (flatIm_at _ _ _ _ (row b c d) q).trans ?_
    show _ = (∑ k : Fin 512, xr (ix4 b c d k) * wi (ix2 q k)) + ∑ k : Fin 512, xi (ix4 b c d k) * wr (ix2 q k)
    have e1 : ∀ k : Fin 512, transpose SW [1, 0] wr ht (ix2 k q) = wr (ix2 q k) := fun k => transposed_apply wr ht k q
    have e2 : ∀ k : Fin 512, transpose SW [1, 0] wi ht (ix2 k q) = wi (ix2 q k) := fun k => transposed_apply wi ht k q
    simp only [flatten_apply, e1, e2]

end Cert.Dft

end
-- ==== Proof.RefIsDft.lean ====
/-
  The reference computes the complex linear layer as four contractions over the range-sample axis
  (x_re·w_reᵀ, x_im·w_imᵀ, x_re·w_imᵀ, x_im·w_reᵀ), a difference and a sum. Read at an index (b, c, d, h), each
  contraction is Σ_k x[b,c,d,k] · w[h,k]; so the difference is the real part and the sum the imaginary part of
  x · Wᵀ as stated once in the specification (`Cert.Dft.re`, `Cert.Dft.im`).
-/
import proofs.«122975_j18811956756731_1_alg».proof.Proof.Gen.ReferenceIdeal.Read
import proofs.«122975_j18811956756731_1_alg».proof.Proof.DftSpec

noncomputable section

namespace Cert.ReferenceIdeal.RefValue

open Cert.ReferenceIdeal Cert.ReferenceIdeal.Read Idealize.ShloMosaic Idealize.ShloMosaic.ValueIdx

/-- The left operand index of product 0: the output's (b, c, d) with the contracted sample k. -/
theorem l0 (i : S8x16x256x512.Idx) (k : Fin 512) : lidx_main_v0 i k = ix4 (i 0) (i 1) (i 2) k :=
  funext fun a => Fin.ext (by match a with | ⟨0, _⟩ => rfl | ⟨1, _⟩ => rfl | ⟨2, _⟩ => rfl | ⟨3, _⟩ => rfl)
/-- The right operand index of product 0: the output's frequency h with the contracted sample k. -/
theorem r0 (i : S8x16x256x512.Idx) (k : Fin 512) : ridx_main_v0 i k = ix2 (i 3) k :=
  funext fun a => Fin.ext (by match a with | ⟨0, _⟩ => rfl | ⟨1, _⟩ => rfl)
/-- The left operand index of product 1: the output's (b, c, d) with the contracted sample k. -/
theorem l1 (i : S8x16x256x512.Idx) (k : Fin 512) : lidx_main_v1 i k = ix4 (i 0) (i 1) (i 2) k :=
  funext fun a => Fin.ext (by match a with | ⟨0, _⟩ => rfl | ⟨1, _⟩ => rfl | ⟨2, _⟩ => rfl | ⟨3, _⟩ => rfl)
/-- The right operand index of product 1: the output's frequency h with the contracted sample k. -/
theorem r1 (i : S8x16x256x512.Idx) (k : Fin 512) : ridx_main_v1 i k = ix2 (i 3) k :=
  funext fun a => Fin.ext (by match a with | ⟨0, _⟩ => rfl | ⟨1, _⟩ => rfl)
/-- The left operand index of product 3: the output's (b, c, d) with the contracted sample k. -/
theorem l3 (i : S8x16x256x512.Idx) (k : Fin 512) : lidx_main_v3 i k = ix4 (i 0) (i 1) (i 2) k :=
  funext fun a => Fin.ext (by match a with | ⟨0, _⟩ => rfl | ⟨1, _⟩ => rfl | ⟨2, _⟩ => rfl | ⟨3, _⟩ => rfl)
/-- The right operand index of product 3: the output's frequency h with the contracted sample k. -/
theorem r3 (i : S8x16x256x512.Idx) (k : Fin 512) : ridx_main_v3 i k = ix2 (i 3) k :=
  funext fun a => Fin.ext (by match a with | ⟨0, _⟩ => rfl | ⟨1, _⟩ => rfl)
/-- The left operand index of product 4: the output's (b, c, d) with the contracted sample k. -/
theorem l4 (i : S8x16x256x512.Idx) (k : Fin 512) : lidx_main_v4 i k = ix4 (i 0) (i 1) (i 2) k :=
  funext fun a => Fin.ext (by match a with | ⟨0, _⟩ => rfl | ⟨1, _⟩ => rfl | ⟨2, _⟩ => rfl | ⟨3, _⟩ => rfl)
/-- The right operand index of product 4: the output's frequency h with the contracted sample k. -/
theorem r4 (i : S8x16x256x512.Idx) (k : Fin 512) : ridx_main_v4 i k = ix2 (i 3) k :=
  funext fun a => Fin.ext (by match a with | ⟨0, _⟩ => rfl | ⟨1, _⟩ => rfl)

/-- The reference's difference of products is the real part of x · Wᵀ. -/
theorem diff_is_re (a0 a1 : (⟨S8x16x256x512, .f32⟩ : BufTy).Contents (Elt Ideal)) (a2 a3 : (⟨S512x512, .f32⟩ : BufTy).Contents (Elt Ideal)) :
    val_main_v2 (F := Ideal) a0 a1 a2 a3 = Cert.Dft.re a0 a1 a2 a3 := by
  funext i
  rw [val_main_v2_apply, val_main_v0_apply, val_main_v1_apply]
  simp only [l0, r0, l1, r1]
  rfl

/-- The reference's sum of products is the imaginary part of x · Wᵀ. -/
theorem sum_is_im (a0 a1 : (⟨S8x16x256x512, .f32⟩ : BufTy).Contents (Elt Ideal)) (a2 a3 : (⟨S512x512, .f32⟩ : BufTy).Contents (Elt Ideal)) :
    val_main_v5 (F := Ideal) a0 a1 a2 a3 = Cert.Dft.im a0 a1 a2 a3 := by
  funext i
  rw [val_main_v5_apply, val_main_v3_apply, val_main_v4_apply]
  simp only [l3, r3, l4, r4]
  rfl

end Cert.ReferenceIdeal.RefValue

end
-- ==== Proof.KernelPayload.lean ====
/-
  What the kernel body stores at one grid point, read at an index of the 2048 × 512 block.

  The body loads a block of x_re and of x_im (2048 rows) and the two transposed weight matrices, narrows them to
  bf16 (the identity on the extended reals), forms four matrix products into zero accumulators and stores
  a − b into the first output block and c + d into the second. At row p and column q a product of a block X with a
  transposed weight T is Σ_k X[p,k] · T[k,q]: the contraction runs over the block's columns and the weight's rows.
-/
import proofs.«122975_j18811956756731_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The left operand's row is the output's row. -/
theorem lhs_row (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contraction position. -/
theorem lhs_col (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
/-- The right operand's row is the contraction position. -/
theorem rhs_row (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
/-- The right operand's column is the output's column. -/
theorem rhs_col (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- A block times a transposed weight into a zero accumulator, at row p and column q: Σ_k X[p,k] · T[k,q]. -/
theorem product_apply (X : FVec Ideal S2048x512 .bf16) (T : FVec Ideal S512x512 .bf16) (p : Fin 2048) (q : Fin 512) :
    matmul (F := Ideal) dot_S2048x512_S512x512_S2048x512_1_0_0_1_n_n none X T (constant (F := Ideal) S2048x512 .f32 0x00000000#32) (ix2 p q)
      = ∑ k : Fin 512, X (ix2 p k) * T (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- Narrowing a loaded block to bf16 changes nothing on the extended reals. -/
theorem narrow_x (x : Vec Ideal S2048x512 .f32) : k0_pay1 (F := Ideal) x = x := by
  unfold k0_pay1; funext i; simp only [shapeCast_self]; rfl
theorem narrow_x' (x : Vec Ideal S2048x512 .f32) : k0_pay2 (F := Ideal) x = x := by
  unfold k0_pay2; funext i; simp only [shapeCast_self]; rfl
theorem narrow_w (x : Vec Ideal S512x512 .f32) : k0_pay3 (F := Ideal) x = x := by
  unfold k0_pay3; funext i; simp only [shapeCast_self]; rfl
theorem narrow_w' (x : Vec Ideal S512x512 .f32) : k0_pay4 (F := Ideal) x = x := by
  unfold k0_pay4; funext i; simp only [shapeCast_self]; rfl

/-- The first output block at (p, q): Σ_k x_re[p,k]·wtre[k,q] − Σ_k x_im[p,k]·wtim[k,q]. -/
theorem stored_re (x0 x1 : Vec Ideal S2048x512 .f32) (x2 x3 : Vec Ideal S512x512 .f32) (p : Fin 2048) (q : Fin 512) :
    k0_pay5 (F := Ideal) x0 x1 x2 x3 (ix2 p q)
      = (∑ k : Fin 512, x0 (ix2 p k) * x2 (ix2 k q)) - ∑ k : Fin 512, x1 (ix2 p k) * x3 (ix2 k q) := by
  unfold k0_pay5
  rw [narrow_x, narrow_x', narrow_w, narrow_w']
  refine (subf_apply _ _ _).trans ?_
  rw [product_apply, product_apply]

/-- The second output block at (p, q): Σ_k x_re[p,k]·wtim[k,q] + Σ_k x_im[p,k]·wtre[k,q]. -/
theorem stored_im (x0 x1 : Vec Ideal S2048x512 .f32) (x2 x3 : Vec Ideal S512x512 .f32) (p : Fin 2048) (q : Fin 512) :
    k0_pay6 (F := Ideal) x0 x1 x2 x3 (ix2 p q)
      = (∑ k : Fin 512, x0 (ix2 p k) * x3 (ix2 k q)) + ∑ k : Fin 512, x1 (ix2 p k) * x2 (ix2 k q) := by
  unfold k0_pay6
  rw [narrow_x, narrow_x', narrow_w, narrow_w']
  refine (addf_apply _ _ _).trans ?_
  rw [product_apply, product_apply]

end Cert.KernelIdeal.Payload

end
-- ==== Proof.KernelValue.lean ====
/-
  The kernel program's result as a function of its four argument arrays.

  The program flattens x_re and x_im to 32768 rows, transposes the two weight matrices, runs the kernel over 16
  grid points — point t reads rows 2048·t … 2048·t + 2047 of the flattened inputs and both whole transposed weights,
  and writes the same rows of the two flattened outputs —, splits the row axis of each output back into
  (batch, channel, doppler) and stacks the two along a new last axis.

  Each output block is the corresponding block of ONE whole-array function of the flattened inputs
  (`Cert.Dft.flatRe`, `Cert.Dft.flatIm`): a row of the block is a row of the array, and the contraction runs over
  the whole sample axis inside the block. The 16 blocks tile the 32768 rows, so after the run the output arrays are
  those functions; un-flattening them gives the real and imaginary parts of x · Wᵀ on the 4-axis layout.
-/
import proofs.«122975_j18811956756731_1_alg».proof.Proof.Gen.KernelIdeal.Frame
import proofs.«122975_j18811956756731_1_alg».proof.Proof.KernelPayload
import proofs.«122975_j18811956756731_1_alg».proof.Proof.DftSpec
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at grid point t: the row blocks of the four row-tiled windows are block t,
    the weights' single block is block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of block t is row 2048·t + p of the flattened array. -/
def arow (t : Fin cfg0.N) (p : Fin 2048) : Fin 32768 :=
  ⟨t.val * 2048 + p.val, by have h := t.isLt; have h16 : cfg0.N = 16 := N_0; omega⟩

/-! ## The input blocks, read off the arrays -/

theorem xre_block (c : Dev nD) (t : Fin cfg0.N) (p : Fin 2048) (k : Fin 512) :
    iblk m c 0 t (ix2 p k) = V m c main_v0 (ix2 (arow t p) k) := by
  obtain ⟨e0, e1, -⟩ := block_index t
  show V m c main_v0 (((cfg0.win 0).blk t).view.emb (ix2 p k)) = _
  refine congrArg (V m c main_v0) (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * k.val = k.val; omega

theorem xim_block (c : Dev nD) (t : Fin cfg0.N) (p : Fin 2048) (k : Fin 512) :
    iblk m c 1 t (ix2 p k) = V m c main_v1 (ix2 (arow t p) k) := by
  obtain ⟨-, -, e0, e1, -⟩ := block_index t
  show V m c main_v1 (((cfg0.win 1).blk t).view.emb (ix2 p k)) = _
  refine congrArg (V m c main_v1) (funext fun a => Fin.ext ?_)
  match a with
  | ⟨0, _⟩ => show win0_1.index t (0 : Fin 2) * 2048 + 1 * p.val = t.val * 2048 + p.val; omega
  | ⟨1, _⟩ => show win0_1.index t (1 : Fin 2) * 512 + 1 * k.val = k.val; omega

theorem wre_block (c : Dev nD) (t : Fin cfg0.N) (k q : Fin 512) :
    iblk m c 2 t (ix2 k q) = V m c main_v2 (ix2 k q) := by
  obtain ⟨-, -, -, -, e0, e1, -⟩ := block_index t
  show V m c main_v2 (((cfg0.win 2).blk t).view.emb (ix2 k q)) = _
  refine congrArg (V m c main_v2) (funext fun a => Fin.ext ?_)
  match a with
  | ⟨0, _⟩ => show win0_2.index t (0 : Fin 2) * 512 + 1 * k.val = k.val; omega
  | ⟨1, _⟩ => show win0_2.index t (1 : Fin 2) * 512 + 1 * q.val = q.val; omega

theorem wim_block (c : Dev nD) (t : Fin cfg0.N) (k q : Fin 512) :
    iblk m c 3 t (ix2 k q) = V m c main_v3 (ix2 k q) := by
  obtain ⟨-, -, -, -, -, -, e0, e1, -⟩ := block_index t
  show V m c main_v3 (((cfg0.win 3).blk t).view.emb (ix2 k q)) = _
  refine congrArg (V m c main_v3) (funext fun a => Fin.ext ?_)
  match a with
  | ⟨0, _⟩ => show win0_3.index t (0 : Fin 2) * 512 + 1 * k.val = k.val; omega
  | ⟨1, _⟩ => show win0_3.index t (1 : Fin 2) * 512 + 1 * q.val = q.val; omega

/-! ## What a point writes back -/

/-- Point t writes back block t of the flattened real part. -/
theorem flushed_re (c : Dev nD) (t : Fin cfg0.N) :
    (dats m 0 c).flushed 4 t = ((cfg0.win 4).blk t).view.read (Elt Ideal)
      (Cert.Dft.flatRe (V m c main_v0) (V m c main_v1) (V m c main_v2) (V m c main_v3)) := by
  show (cfg0.win 4).cut (grid0.coords t) ((dats m 0 c).after 4 t) = _
  rw [after0_4]
  unfold out0_4
  rw [View.canon_unit_zero origin]
  simp only [View.ld_unit_zero (S := S2048x512) origin, View.ld_unit_zero (S := S512x512) origin]
  funext j
  obtain ⟨p, q, rfl⟩ : ∃ (p : Fin 2048) (q : Fin 512), j = ix2 p q := ⟨j 0, j 1, eq_ix2 j⟩
  have hemb : ((cfg0.win 4).blk t).view.emb (ix2 p q) = ix2 (arow t p) q := by
    obtain ⟨-, -, -, -, -, -, -, -, e0, e1, -⟩ := block_index t
    funext a; apply Fin.ext
    match a with
    | ⟨0, _⟩ => show win0_4.index t (0 : Fin 2) * 2048 + 1 * p.val = t.val * 2048 + p.val; omega
    | ⟨1, _⟩ => show win0_4.index t (1 : Fin 2) * 512 + 1 * q.val = q.val; omega
  show k0_pay5 (F := Ideal) (iblk m c 0 t) (iblk m c 1 t) (iblk m c 2 t) (iblk m c 3 t) (ix2 p q)
      = Cert.Dft.flatRe (V m c main_v0) (V m c main_v1) (V m c main_v2) (V m c main_v3) (((cfg0.win 4).blk t).view.emb (ix2 p q))
  rw [hemb]
  refine (Payload.stored_re (iblk m c 0 t) (iblk m c 1 t) (iblk m c 2 t) (iblk m c 3 t) p q).trans ?_
  refine Eq.trans ?_ (Cert.Dft.flatRe_at _ _ _ _ (arow t p) q).symm
  simp only [xre_block, xim_block, wre_block, wim_block]

/-- Point t writes back block t of the flattened imaginary part. -/
theorem flushed_im (c : Dev nD) (t : Fin cfg0.N) :
    (dats m 0 c).flushed 5 t = ((cfg0.win 5).blk t).view.read (Elt Ideal)
      (Cert.Dft.flatIm (V m c main_v0) (V m c main_v1) (V m c main_v2) (V m c main_v3)) := by
  show (cfg0.win 5).cut (grid0.coords t) ((dats m 0 c).after 5 t) = _
  rw [after0_5]
  unfold out0_5
  rw [View.canon_unit_zero origin]
  simp only [View.ld_unit_zero (S := S2048x512) origin, View.ld_unit_zero (S := S512x512) origin]
  funext j
  obtain ⟨p, q, rfl⟩ : ∃ (p : Fin 2048) (q : Fin 512), j = ix2 p q := ⟨j 0, j 1, eq_ix2 j⟩
  have hemb : ((cfg0.win 5).blk t).view.emb (ix2 p q) = ix2 (arow t p) q := by
    obtain ⟨-, -, -, -, -, -, -, -, -, -, e0, e1⟩ := block_index t
    funext a; apply Fin.ext
    match a with
    | ⟨0, _⟩ => show win0_5.index t (0 : Fin 2) * 2048 + 1 * p.val = t.val * 2048 + p.val; omega
    | ⟨1, _⟩ => show win0_5.index t (1 : Fin 2) * 512 + 1 * q.val = q.val; omega
  show k0_pay6 (F := Ideal) (iblk m c 0 t) (iblk m c 1 t) (iblk m c 2 t) (iblk m c 3 t) (ix2 p q)
      = Cert.Dft.flatIm (V m c main_v0) (V m c main_v1) (V m c main_v2) (V m c main_v3) (((cfg0.win 5).blk t).view.emb (ix2 p q))
  rw [hemb]
  refine (Payload.stored_im (iblk m c 0 t) (iblk m c 1 t) (iblk m c 2 t) (iblk m c 3 t) p q).trans ?_
  refine Eq.trans ?_ (Cert.Dft.flatIm_at _ _ _ _ (arow t p) q).symm
  simp only [xre_block, xim_block, wre_block, wim_block]

/-! ## The output arrays after the run -/

/-- An index of the output array is in point t's block iff each coordinate is in the block's range on its axis. -/
theorem mem_block_re (t : Fin cfg0.N) (i : S32768x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v4_0).slice (win0_4.rect t)).set ↔ _
  rw [View.set_slice_whole, Rect.mem_set_unit]
  exact Iff.rfl

/-- Row r of the output lies in the block of point r / 2048: the 16 blocks tile the rows. -/
theorem covered_re (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have h16 : cfg0.N = 16 := N_0
  have ht : (i 0).val / 2048 < cfg0.N := by omega
  obtain ⟨-, -, -, -, -, -, -, -, e0, e1, -⟩ := block_index ⟨(i 0).val / 2048, ht⟩
  refine ⟨⟨(i 0).val / 2048, ht⟩, flush0_4 _, ?_⟩
  rw [mem_block_re]
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    have e0' : win0_4.index ⟨(i 0).val / 2048, ht⟩ (0 : Fin 2) = (i 0).val / 2048 := e0
    omega
  | ⟨1, _⟩ =>
    show win0_4.index ⟨(i 0).val / 2048, ht⟩ (1 : Fin 2) * 512 ≤ (i 1).val ∧ (i 1).val < win0_4.index ⟨(i 0).val / 2048, ht⟩ (1 : Fin 2) * 512 + 512
    omega

/-- After the run the output array is the whole flattened function. -/
theorem final_re (c : Dev nD) :
    (dats m 0 c).arrAt 4 cfg0.N = Cert.Dft.flatRe (V m c main_v0) (V m c main_v1) (V m c main_v2) (V m c main_v3) :=
  (dats m 0 c).arrAt_eq_of_cover 4 _ (fun t _ => flushed_re m c t) covered_re

/-- An index of the output array is in point t's block iff each coordinate is in the block's range on its axis. -/
theorem mem_block_im (t : Fin cfg0.N) (i : S32768x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v4_1).slice (win0_5.rect t)).set ↔ _
  rw [View.set_slice_whole, Rect.mem_set_unit]
  exact Iff.rfl

/-- Row r of the output lies in the block of point r / 2048: the 16 blocks tile the rows. -/
theorem covered_im (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have h16 : cfg0.N = 16 := N_0
  have ht : (i 0).val / 2048 < cfg0.N := by omega
  obtain ⟨-, -, -, -, -, -, -, -, -, -, e0, e1⟩ := block_index ⟨(i 0).val / 2048, ht⟩
  refine ⟨⟨(i 0).val / 2048, ht⟩, flush0_5 _, ?_⟩
  rw [mem_block_im]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    have e0' : win0_5.index ⟨(i 0).val / 2048, ht⟩ (0 : Fin 2) = (i 0).val / 2048 := e0
    omega
  | ⟨1, _⟩ =>
    show win0_5.index ⟨(i 0).val / 2048, ht⟩ (1 : Fin 2) * 512 ≤ (i 1).val ∧ (i 1).val < win0_5.index ⟨(i 0).val / 2048, ht⟩ (1 : Fin 2) * 512 + 512
    omega

/-- After the run the output array is the whole flattened function. -/
theorem final_im (c : Dev nD) :
    (dats m 0 c).arrAt 5 cfg0.N = Cert.Dft.flatIm (V m c main_v0) (V m c main_v1) (V m c main_v2) (V m c main_v3) :=
  (dats m 0 c).arrAt_eq_of_cover 5 _ (fun t _ => flushed_im m c t) covered_im

/-! ## The arrays the region finds: the host lines before it -/

/-- The region finds x_re flattened. -/
theorem entry_xre (c : Dev nD) :
    (V m c main_v0 : S32768x512.Idx → EReal) = shapeCast S32768x512 (m ((c : Thread nD τ).loc main_arg0)) shapeCasts_S8x16x256x512_S32768x512 := by
  show StableHlo.after hostOps0 (fun b => m (c, b)) (Proc.devRef .tc main_v0) = _
  after_results
  rfl

/-- The region finds x_im flattened. -/
theorem entry_xim (c : Dev nD) :
    (V m c main_v1 : S32768x512.Idx → EReal) = shapeCast S32768x512 (m ((c : Thread nD τ).loc main_arg1)) shapeCasts_S8x16x256x512_S32768x512 := by
  show StableHlo.after hostOps0 (fun b => m (c, b)) (Proc.devRef .tc main_v1) = _
  after_results
  rfl

/-- The region finds w_re transposed. -/
theorem entry_wre (c : Dev nD) :
    (V m c main_v2 : S512x512.Idx → EReal) = transpose S512x512 [1, 0] (m ((c : Thread nD τ).loc main_arg2)) transposes_S512x512_S512x512_1_0 := by
  show StableHlo.after hostOps0 (fun b => m (c, b)) (Proc.devRef .tc main_v2) = _
  after_results

/-- The region finds w_im transposed. -/
theorem entry_wim (c : Dev nD) :
    (V m c main_v3 : S512x512.Idx → EReal) = transpose S512x512 [1, 0] (m ((c : Thread nD τ).loc main_arg3)) transposes_S512x512_S512x512_1_0 := by
  show StableHlo.after hostOps0 (fun b => m (c, b)) (Proc.devRef .tc main_v3) = _
  after_results

/-! ## The host lines after the region -/

/-- The first output array as the host lines after the region read it, un-flattened: the real part of x · Wᵀ. -/
theorem out_re (c : Dev nD) :
    shapeCast S8x16x256x512
        (Pipeline.withArrays (cfgs 0).spec c (V0 m c) (fun w => (dats m 0 c).arrAt w (cfgs 0).N) (Proc.devRef .tc main_v4_0) : S32768x512.Idx → EReal)
        shapeCasts_S32768x512_S8x16x256x512
      = Cert.Dft.re (m ((c : Thread nD τ).loc main_arg0)) (m ((c : Thread nD τ).loc main_arg1)) (m ((c : Thread nD τ).loc main_arg2)) (m ((c : Thread nD τ).loc main_arg3)) := by
  have harr : (Pipeline.withArrays (cfgs 0).spec c (V0 m c) (fun w => (dats m 0 c).arrAt w (cfgs 0).N) (Proc.devRef .tc main_v4_0) : S32768x512.Idx → EReal)
      = Cert.Dft.flatRe (V m c main_v0) (V m c main_v1) (V m c main_v2) (V m c main_v3) :=
    (Pipeline.withArrays_arr spec0 launch0.win.arr_inj c _ _ 4).trans (final_re m c)
  rw [harr, entry_xre, entry_xim, entry_wre, entry_wim]
  exact Cert.Dft.unflatten_flatRe _ _ _ _ _ _ _

/-- The second output array as the host lines after the region read it, un-flattened: the imaginary part of x · Wᵀ. -/
theorem out_im (c : Dev nD) :
    shapeCast S8x16x256x512
        (Pipeline.withArrays (cfgs 0).spec c (V0 m c) (fun w => (dats m 0 c).arrAt w (cfgs 0).N) (Proc.devRef .tc main_v4_1) : S32768x512.Idx → EReal)
        shapeCasts_S32768x512_S8x16x256x512
      = Cert.Dft.im (m ((c : Thread nD τ).loc main_arg0)) (m ((c : Thread nD τ).loc main_arg1)) (m ((c : Thread nD τ).loc main_arg2)) (m ((c : Thread nD τ).loc main_arg3)) := by
  have harr : (Pipeline.withArrays (cfgs 0).spec c (V0 m c) (fun w => (dats m 0 c).arrAt w (cfgs 0).N) (Proc.devRef .tc main_v4_1) : S32768x512.Idx → EReal)
      = Cert.Dft.flatIm (V m c main_v0) (V m c main_v1) (V m c main_v2) (V m c main_v3) :=
    (Pipeline.withArrays_arr spec0 launch0.win.arr_inj c _ _ 5).trans (final_im m c)
  rw [harr, entry_xre, entry_xim, entry_wre, entry_wim]
  exact Cert.Dft.unflatten_flatIm _ _ _ _ _ _ _

/-- The host lines after the region, over any contents F of the buffers they read: both flattened outputs are split
    back into (batch, channel, doppler) rows, given a trailing unit axis, and joined along it. -/
theorem tail_eq (F : Valuation τ sig (Elt Ideal)) :
    StableHlo.after hostOps1 F (Proc.devRef .tc main_v9)
      = concatenate S8x16x256x512x2 4
          [⟨S8x16x256x512x1, broadcastInDim S8x16x256x512x1 ![0, 1, 2, 3] bcast_S8x16x256x512_S8x16x256x512x1_0_1_2_3
              (shapeCast S8x16x256x512 (F (Proc.devRef .tc main_v4_0) : S32768x512.Idx → EReal) shapeCasts_S32768x512_S8x16x256x512)⟩,
           ⟨S8x16x256x512x1, broadcastInDim S8x16x256x512x1 ![0, 1, 2, 3] bcast_S8x16x256x512_S8x16x256x512x1_0_1_2_3
              (shapeCast S8x16x256x512 (F (Proc.devRef .tc main_v4_1) : S32768x512.Idx → EReal) shapeCasts_S32768x512_S8x16x256x512)⟩]
          concatenates_S8x16x256x512x1_S8x16x256x512x1_S8x16x256x512x2_d4 := by
  after_results
  rfl

/-- The program's result: the two output arrays, un-flattened, each given a trailing unit axis, joined along it. -/
theorem result_eq (c : Dev nD) :
    Pipeline.afterTail₀ cfgs (dats m) 0 (V0 m) [hostOps1] c main_v9
      = concatenate S8x16x256x512x2 4
          [⟨S8x16x256x512x1, broadcastInDim S8x16x256x512x1 ![0, 1, 2, 3] bcast_S8x16x256x512_S8x16x256x512x1_0_1_2_3
              (Cert.Dft.re (m ((c : Thread nD τ).loc main_arg0)) (m ((c : Thread nD τ).loc main_arg1)) (m ((c : Thread nD τ).loc main_arg2)) (m ((c : Thread nD τ).loc main_arg3)))⟩,
           ⟨S8x16x256x512x1, broadcastInDim S8x16x256x512x1 ![0, 1, 2, 3] bcast_S8x16x256x512_S8x16x256x512x1_0_1_2_3
              (Cert.Dft.im (m ((c : Thread nD τ).loc main_arg0)) (m ((c : Thread nD τ).loc main_arg1)) (m ((c : Thread nD τ).loc main_arg2)) (m ((c : Thread nD τ).loc main_arg3)))⟩]
          concatenates_S8x16x256x512x1_S8x16x256x512x1_S8x16x256x512x2_d4 := by
  unfold Pipeline.afterTail₀
  show StableHlo.after hostOps1 _ (Proc.devRef .tc main_v9) = _
  rw [tail_eq, out_re, out_im]

/-! ## The run, read -/

/-- Every weakly fair execution of the program terminates with its result at the stacked real and imaginary parts of
    x · Wᵀ of the argument arrays, the arguments unchanged. -/
theorem run : θ_run defs (onTc (τ := τ) (main (F := Ideal))) ⟨m, fun _ => 0, ρ⟩ fun r => ∀ c : Dev nD,
      r.2.mem ((c.tc : Thread nD τ).loc main_v9) = concatenate S8x16x256x512x2 4
          [⟨S8x16x256x512x1, broadcastInDim S8x16x256x512x1 ![0, 1, 2, 3] bcast_S8x16x256x512_S8x16x256x512x1_0_1_2_3
              (Cert.Dft.re (m ((c : Thread nD τ).loc main_arg0)) (m ((c : Thread nD τ).loc main_arg1)) (m ((c : Thread nD τ).loc main_arg2)) (m ((c : Thread nD τ).loc main_arg3)))⟩,
           ⟨S8x16x256x512x1, broadcastInDim S8x16x256x512x1 ![0, 1, 2, 3] bcast_S8x16x256x512_S8x16x256x512x1_0_1_2_3
              (Cert.Dft.im (m ((c : Thread nD τ).loc main_arg0)) (m ((c : Thread nD τ).loc main_arg1)) (m ((c : Thread nD τ).loc main_arg2)) (m ((c : Thread nD τ).loc main_arg3)))⟩]
          concatenates_S8x16x256x512x1_S8x16x256x512x1_S8x16x256x512x2_d4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v9 (Pipeline.mem_restRefs_of main_v9 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KValue

end
-- ==== Proof.lean ====
/-
  The complex linear layer y = x · Wᵀ (a frozen 512-point DFT applied along the range-sample axis), real and
  imaginary parts stacked on a trailing axis of extent 2:

      y[b,c,d,h,0] = Σ_j x_re[b,c,d,j] · w_re[h,j] − Σ_j x_im[b,c,d,j] · w_im[h,j]
      y[b,c,d,h,1] = Σ_j x_re[b,c,d,j] · w_im[h,j] + Σ_j x_im[b,c,d,j] · w_re[h,j]

  The reference contracts the 4-axis inputs with the weights directly. The kernel flattens the leading three axes
  into 32768 rows, transposes the weights, and computes 16 row blocks of 2048 rows, each by four matrix products of
  bf16-narrowed operands accumulated in f32. Over the extended reals narrowing is the identity, a matrix product
  into a zero accumulator is the plain sum of products, and neither the row tiling nor the flattening changes which
  products are summed: both programs compute the sums above, term by term (Proof/DftSpec.lean states them,
  Proof/RefIsDft.lean reads the reference, Proof/KernelPayload.lean one block of the kernel, Proof/KernelValue.lean the
  kernel's whole run). No algebraic law is needed, so the finiteness precondition is not used.
-/
import proofs.«122975_j18811956756731_1_alg».proof.Defs
import proofs.«122975_j18811956756731_1_alg».proof.Proof.Gen.Kernel
import proofs.«122975_j18811956756731_1_alg».proof.Proof.Gen.Kernel.Skeleton
import proofs.«122975_j18811956756731_1_alg».proof.Proof.Gen.Kernel.Launch
import proofs.«122975_j18811956756731_1_alg».proof.Proof.Gen.Kernel.Points
import proofs.«122975_j18811956756731_1_alg».proof.Proof.Gen.Kernel.Frame
import proofs.«122975_j18811956756731_1_alg».proof.Proof.Gen.KernelIdeal
import proofs.«122975_j18811956756731_1_alg».proof.Proof.Gen.KernelIdeal.Skeleton
import proofs.«122975_j18811956756731_1_alg».proof.Proof.Gen.KernelIdeal.Launch
import proofs.«122975_j18811956756731_1_alg».proof.Proof.Gen.KernelIdeal.Points
import proofs.«122975_j18811956756731_1_alg».proof.Proof.Gen.KernelIdeal.Frame
import proofs.«122975_j18811956756731_1_alg».proof.Proof.Gen.ReferenceIdeal
import proofs.«122975_j18811956756731_1_alg».proof.Proof.Gen.ReferenceIdeal.Run
import proofs.«122975_j18811956756731_1_alg».proof.Proof.Gen.ReferenceIdeal.Read
import proofs.«122975_j18811956756731_1_alg».proof.Proof.Gen.Pre_finite_inputs
import proofs.«122975_j18811956756731_1_alg».proof.Proof.DftSpec
import proofs.«122975_j18811956756731_1_alg».proof.Proof.RefIsDft
import proofs.«122975_j18811956756731_1_alg».proof.Proof.KernelValue
import Idealize.ShloMosaic.Adequacy
import Idealize.ShloMosaic.Init

noncomputable section

namespace Cert.Proof

open Idealize.ShloMosaic Idealize.SL.Sem

/-- The word-level kernel program terminates, faults nowhere and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- And the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the stacked real and imaginary parts of x · Wᵀ of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v8_eq]
  unfold Cert.ReferenceIdeal.Read.val_main_v8 Cert.ReferenceIdeal.Read.val_main_v6 Cert.ReferenceIdeal.Read.val_main_v7
  rw [Cert.ReferenceIdeal.RefValue.diff_is_re, Cert.ReferenceIdeal.RefValue.sum_is_im]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
